-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x256 : Shape := ⟨2, ![128, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg1 : IVec S640000 32) (main_v33 : IVec S_ 1) : IVec S_ 1 :=
  let main_c_12 : IVec S_ 32 := constantI S_ 32 4294917296#32
  let main_v34 : IVec S640000 32 := broadcastInDim S640000 ![] bcast_S_S640000 main_c_12
  let main_v35 : IVec S640000 1 := cmpi .sge main_arg1 main_v34
  let main_c_13 : IVec S_ 32 := constantI S_ 32 50000#32
  let main_v36 : IVec S640000 32 := broadcastInDim S640000 ![] bcast_S_S640000 main_c_13
  let main_v37 : IVec S640000 1 := cmpi .slt main_arg1 main_v36
  let main_v38 : IVec S640000 1 := andi main_v35 main_v37
  let main_c_14 : IVec S_ 1 := constantI S_ 1 1#1
  let main_v39 : IVec S_ 1 := (fun x v => Host.reduce IntOp.andi x v reducesTo_S640000_S_d0 h_S_) main_v38 main_c_14
  let main_v40 : IVec S_ 1 := andi main_v33 main_v39
  main_v40

def fn_part1 {F : FTy → Type} [FloatOps F] (main_arg1 : IVec S640000 32) (main_arg6 : FVec F S256x2 .f32) (main_arg7 : FVec F S256x2 .f32) (main_arg8 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x2 .f32 := Host.absf main_arg6
  let main_cst_6 : FVec F S_ .f32 := constant S_ .f32 0x7F800000#32
  let main_v20 : FVec F S256x2 .f32 := broadcastInDim S256x2 ![] bcast_S_S256x2 main_cst_6
  let main_v21 : IVec S256x2 1 := cmpf .olt main_v19 main_v20
  let main_c_7 : IVec S_ 1 := constantI S_ 1 1#1
  let main_v22 : IVec S_ 1 := (fun x v => Host.reduce IntOp.andi x v reducesTo_S256x2_S_d0_1 h_S_) main_v21 main_c_7
  let main_v23 : IVec S_ 1 := andi main_v18 main_v22
  let main_v24 : FVec F S256x2 .f32 := Host.absf main_arg7
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S640000 32) (main_arg2 : IVec S640000 32) (main_arg3 : FVec F S128x256 .f32) (main_arg4 : FVec F S128x256 .f32) (main_arg5 : FVec F S256 .f32) (main_arg6 : FVec F S256x2 .f32) (main_arg7 : FVec F S256x2 .f32) (main_arg8 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg6 main_arg7 main_arg8 main_v13 main_v16
-- ==== Kernel.lean ====
abbrev S50000x128 : Shape := ⟨2, ![50000, 128]⟩
abbrev S640000 : Shape := ⟨1, ![640000]⟩
abbrev S128x256 : Shape := ⟨2, ![128, 256]⟩
abbrev S256 : Shape := ⟨1, ![256]⟩
abbrev S256x2 : Shape := ⟨2, ![256, 2]⟩
abbrev S2 : Shape := ⟨1, ![2]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S50000x1 : Shape := ⟨2, ![50000, 1]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S640000x256 : Shape := ⟨2, ![640000, 256]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 89
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x2, .f32⟩
  | .hbm, ⟨7, _⟩ => ⟨S256x2, .f32⟩
  | .hbm, ⟨8, _⟩ => ⟨S2, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S1, .i32⟩
  | .hbm, ⟨18, _⟩ => ⟨S_, .i32⟩
  | .hbm, ⟨19, _⟩ => ⟨S640000x1, .i32⟩
  | .hbm, ⟨20, _⟩ => ⟨S640000x1, .i1⟩
  | .hbm, ⟨21, _⟩ => ⟨S1x1, .i32⟩
  | .hbm, ⟨22, _⟩ => ⟨S640000x1, .i32⟩
  | .hbm, ⟨23, _⟩ => ⟨S640000x1, .i1⟩
  | .hbm, ⟨24, _⟩ => ⟨S640000x1, .i1⟩
  | .hbm, ⟨25, _⟩ => ⟨S_, .i1⟩
  | .hbm, ⟨26, _⟩ => ⟨S640000, .i1⟩
  | .hbm, ⟨27, _⟩ => ⟨S640000x128, .f32⟩
  | .hbm, ⟨28, _⟩ => ⟨S640000x128, .i1⟩
  | .hbm, ⟨29, _⟩ => ⟨S_, .f32⟩
  | .hbm, ⟨30, _⟩ => ⟨S640000x128, .f32⟩
  | .hbm, ⟨31, _⟩ => ⟨S640000x128, .f32⟩
  | .hbm, ⟨32, _⟩ => ⟨S_, .f32⟩
  | .hbm, ⟨33, _⟩ => ⟨S50000x128, .f32⟩
  | .hbm, ⟨34, _⟩ => ⟨S640000x1, .i32⟩
  | .hbm, ⟨35, _⟩ => ⟨S50000x128, .f32⟩
  | .hbm, ⟨36, _⟩ => ⟨S_, .f32⟩
  | .hbm, ⟨37, _⟩ => ⟨S640000x1, .f32⟩
  | .hbm, ⟨38, _⟩ => ⟨S_, .f32⟩
  | .hbm, ⟨39, _⟩ => ⟨S50000x1, .f32⟩
  | .hbm, ⟨40, _⟩ => ⟨S640000x1, .i32⟩
  | .hbm, ⟨41, _⟩ => ⟨S50000x1, .f32⟩
  | .hbm, ⟨42, _⟩ => ⟨S_, .f32⟩
  | .hbm, ⟨43, _⟩ => ⟨S50000x1, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S1x256, .f32⟩
  | .hbm, ⟨48, _⟩ => ⟨S50000x256, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S1, .i32⟩
  | .hbm, ⟨58, _⟩ => ⟨S_, .i32⟩
  | .hbm, ⟨59, _⟩ => ⟨S640000x1, .i32⟩
  | .hbm, ⟨60, _⟩ => ⟨S640000x1, .i1⟩
  | .hbm, ⟨61, _⟩ => ⟨S1x1, .i32⟩
  | .hbm, ⟨62, _⟩ => ⟨S640000x1, .i32⟩
  | .hbm, ⟨63, _⟩ => ⟨S640000x1, .i1⟩
  | .hbm, ⟨64, _⟩ => ⟨S640000x1, .i1⟩
  | .hbm, ⟨65, _⟩ => ⟨S_, .i1⟩
  | .hbm, ⟨66, _⟩ => ⟨S640000, .i1⟩
  | .hbm, ⟨67, _⟩ => ⟨S640000x256, .f32⟩
  | .hbm, ⟨68, _⟩ => ⟨S640000x256, .i1⟩
  | .hbm, ⟨69, _⟩ => ⟨S_, .f32⟩
  | .hbm, ⟨70, _⟩ => ⟨S640000x256, .f32⟩
  | .hbm, ⟨71, _⟩ => ⟨S640000x256, .f32⟩
  | .hbm, ⟨72, _⟩ => ⟨S_, .f32⟩
  | .hbm, ⟨73, _⟩ => ⟨S50000x256, .f32⟩
  | .hbm, ⟨74, _⟩ => ⟨S640000x1, .i32⟩
  | .hbm, ⟨75, _⟩ => ⟨S50000x256, .f32⟩
  | .hbm, ⟨76, _⟩ => ⟨S_, .f32⟩
  | .hbm, ⟨77, _⟩ => ⟨S640000x1, .f32⟩
  | .hbm, ⟨78, _⟩ => ⟨S_, .f32⟩
  | .hbm, ⟨79, _⟩ => ⟨S50000x1, .f32⟩
  | .hbm, ⟨80, _⟩ => ⟨S640000x1, .i32⟩
  | .hbm, ⟨81, _⟩ => ⟨S50000x1, .f32⟩
  | .hbm, ⟨82, _⟩ => ⟨S_, .f32⟩
  | .hbm, ⟨83, _⟩ => ⟨S50000x1, .f32⟩
  | .hbm, ⟨84, _⟩ => ⟨S50000x1, .f32⟩
  | .hbm, ⟨85, _⟩ => ⟨S50000x256, .f32⟩
  | .hbm, ⟨86, _⟩ => ⟨S50000x256, .f32⟩
  | .hbm, ⟨87, _⟩ => ⟨S1x2, .f32⟩
  | .hbm, ⟨88, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x2, .f32⟩
  | .local _ .vmem, ⟨14, _⟩ => ⟨S256x2, .f32⟩
  | .local _ .vmem, ⟨15, _⟩ => ⟨S1x2, .f32⟩
  | .local _ .vmem, ⟨16, _⟩ => ⟨S5000x2, .f32⟩
  | .local _ .vmem, ⟨17, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_cst : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_cst_0 : Ref sig .tc := ⟨.hbm, 36, rfl⟩
abbrev main_v4 : Ref sig .tc := ⟨.hbm, 37, rfl⟩
abbrev main_cst_1 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst_2 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v14 : Ref sig .tc := ⟨.hbm, 71, rfl⟩
abbrev main_cst_3 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_cst_4 : Ref sig .tc := ⟨.hbm, 76, rfl⟩
abbrev main_v18 : Ref sig .tc := ⟨.hbm, 77, rfl⟩
abbrev main_cst_5 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_6 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S640000_S640000x256_0 : S640000.BroadcastsInDim S640000x256 (![0] : Fin 1 → Fin S640000x256.rank)
  bcast_S_S640000x256 : S_.BroadcastsInDim S640000x256 (![] : Fin 0 → Fin S640000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2_S1x2 : S2.ShapeCasts S1x2
  shapeCasts_S5000x256_S5000x256 : S5000x256.ShapeCasts S5000x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000x1_S640000x1_S640000x1_1_0_0_1_wf : ScatterDims.WF S50000x1 S640000x1 S640000x1 [1] [0] [0] 1
  dot_S5000x128_S128x256_S5000x256_1_0_0_1_n_n_wf : DotDims.WF S5000x128 S128x256 S5000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S5000x256_S256x2_S5000x2_1_0_0_1_n_n_wf : DotDims.WF S5000x256 S256x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x2.size a ≤ S256x2.size a
  hwx1_2 : ∀ i : grid1.Coords, EltTy.bits .f32 = 32 ∨ (Rect.block (s := S256x2) S256x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x2.size a ≤ S256x2.size a
  hwx1_3 : ∀ i : grid1.Coords, EltTy.bits .f32 = 32 ∨ (Rect.block (s := S256x2) S256x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x2.size a ≤ S50000x2.size a
  hwx1_5 : ∀ i : grid1.Coords, EltTy.bits .f32 = 32 ∨ (Rect.block (s := S50000x2) S5000x2.size (cc1_transform_5 i) (hinb1_5 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S5000x256_S256x2_S5000x2_1_0_0_1_n_n : DotDims S5000x256 S256x2 S5000x2 where
  lhsContracting := [1]
  rhsContracting := [0]
  lhsNonContracting := [0]
  rhsNonContracting := [1]
  lhsBatch := []
  rhsBatch := []
  wf := dot_S5000x256_S256x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S640000 : Shape := ⟨1, ![640000]⟩
abbrev S128x256 : Shape := ⟨2, ![128, 256]⟩
abbrev S256 : Shape := ⟨1, ![256]⟩
abbrev S256x2 : Shape := ⟨2, ![256, 2]⟩
abbrev S2 : Shape := ⟨1, ![2]⟩
abbrev S_ : Shape := ⟨0, ![]⟩
abbrev S640000x1 : Shape := ⟨2, ![640000, 1]⟩
abbrev S640000x128 : Shape := ⟨2, ![640000, 128]⟩
abbrev S50000x1 : Shape := ⟨2, ![50000, 1]⟩
abbrev S50000x256 : Shape := ⟨2, ![50000, 256]⟩
abbrev S1x256 : Shape := ⟨2, ![1, 256]⟩
abbrev S640000x256 : Shape := ⟨2, ![640000, 256]⟩
abbrev S50000x2 : Shape := ⟨2, ![50000, 2]⟩
abbrev S1x2 : Shape := ⟨2, ![1, 2]⟩

abbrev nBuf : Space → Nat
  | .hbm => 72
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x2, .f32⟩
  | .hbm, ⟨7, _⟩ => ⟨S256x2, .f32⟩
  | .hbm, ⟨8, _⟩ => ⟨S2, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S50000x128, .f32⟩
  | .hbm, ⟨20, _⟩ => ⟨S640000x1, .i32⟩
  | .hbm, ⟨21, _⟩ => ⟨S50000x128, .f32⟩
  | .hbm, ⟨22, _⟩ => ⟨S_, .f32⟩
  | .hbm, ⟨23, _⟩ => ⟨S640000x1, .f32⟩
  | .hbm, ⟨24, _⟩ => ⟨S_, .f32⟩
  | .hbm, ⟨25, _⟩ => ⟨S50000x1, .f32⟩
  | .hbm, ⟨26, _⟩ => ⟨S640000x1, .i32⟩
  | .hbm, ⟨27, _⟩ => ⟨S50000x1, .f32⟩
  | .hbm, ⟨28, _⟩ => ⟨S_, .f32⟩
  | .hbm, ⟨29, _⟩ => ⟨S50000x1, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S1x256, .f32⟩
  | .hbm, ⟨37, _⟩ => ⟨S50000x256, .f32⟩
  | .hbm, ⟨38, _⟩ => ⟨S50000x256, .f32⟩
  | .hbm, ⟨39, _⟩ => ⟨S_, .f32⟩
  | .hbm, ⟨40, _⟩ => ⟨S50000x256, .f32⟩
  | .hbm, ⟨41, _⟩ => ⟨S50000x256, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x256, .f32⟩
  | .hbm, ⟨51, _⟩ => ⟨S_, .f32⟩
  | .hbm, ⟨52, _⟩ => ⟨S50000x256, .f32⟩
  | .hbm, ⟨53, _⟩ => ⟨S640000x1, .i32⟩
  | .hbm, ⟨54, _⟩ => ⟨S50000x256, .f32⟩
  | .hbm, ⟨55, _⟩ => ⟨S_, .f32⟩
  | .hbm, ⟨56, _⟩ => ⟨S640000x1, .f32⟩
  | .hbm, ⟨57, _⟩ => ⟨S_, .f32⟩
  | .hbm, ⟨58, _⟩ => ⟨S50000x1, .f32⟩
  | .hbm, ⟨59, _⟩ => ⟨S640000x1, .i32⟩
  | .hbm, ⟨60, _⟩ => ⟨S50000x1, .f32⟩
  | .hbm, ⟨61, _⟩ => ⟨S_, .f32⟩
  | .hbm, ⟨62, _⟩ => ⟨S50000x1, .f32⟩
  | .hbm, ⟨63, _⟩ => ⟨S50000x1, .f32⟩
  | .hbm, ⟨64, _⟩ => ⟨S50000x256, .f32⟩
  | .hbm, ⟨65, _⟩ => ⟨S50000x256, .f32⟩
  | .hbm, ⟨66, _⟩ => ⟨S50000x2, .f32⟩
  | .hbm, ⟨67, _⟩ => ⟨S50000x2, .f32⟩
  | .hbm, ⟨68, _⟩ => ⟨S50000x2, .f32⟩
  | .hbm, ⟨69, _⟩ => ⟨S1x2, .f32⟩
  | .hbm, ⟨70, _⟩ => ⟨S50000x2, .f32⟩
  | .hbm, ⟨71, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S640000x1 : S_.BroadcastsInDim S640000x1 (![] : Fin 0 → Fin S640000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000x1_S640000x1_S640000x1_1_0_0_1_wf : ScatterDims.WF S50000x1 S640000x1 S640000x1 [1] [0] [0] 1
  dot_S50000x128_S128x256_S50000x256_1_0_0_1_n_n_wf : DotDims.WF S50000x128 S128x256 S50000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S50000x256_S256x2_S50000x2_1_0_0_1_n_n_wf : DotDims.WF S50000x256 S256x2 S50000x2 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.LibPlainDot.lean ====
/-
  A plain matrix product [M, K] × [K, N] → [M, N] read at an index, for any dimension record that contracts the left
  operand's axis 1 with the right operand's axis 0: the sum over the contraction shape is the sum over the one
  contracted coordinate k of left (i₀, k) · right (k, i₁). The record's four axis facts are hypotheses, so the lemma
  serves a block-sized and a whole-array record alike; the proof re-indexes the sum through the bijection between a
  one-axis contraction index and its coordinate.
-/
import Idealize.ShloMosaic.Lib.ValueIdx
import Idealize.ShloMosaic.PureOps.Ideal.Laws

noncomputable section

namespace PlainDot

open Idealize.ShloMosaic Idealize.ShloMosaic.ValueIdx

/-- The contraction sum of a plain product, over the contracted coordinate. -/
theorem sum_contr {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (i : (⟨2, ![M, N]⟩ : Shape).Idx) :
    ∑ q : d.contr.Idx, l (d.lhsIdx i q) * r (d.rhsIdx i q) = ∑ k : Fin K, l (ix2 (i 0) k) * r (ix2 k (i 1)) := by
  rw [← Equiv.sum_comp (contrEquiv1 d K hr hs).symm]
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ => exact hl0 _ _
    | ⟨1, _⟩ => exact (hl1 _ _).trans hk)
  have er : d.rhsIdx i ((contrEquiv1 d K hr hs).symm k) = ix2 k (i 1) := funext fun a => Fin.ext (by
    match a with
    | ⟨0, _⟩ => exact (hr0 _ _).trans hk
    | ⟨1, _⟩ => exact hr1 _ _)
  rw [el, er]
  rfl

/-- One layer's value at an index: the row of `x` against the column of `ws`, plus the row of `hn` against the column
    of `wn`, plus the bias row's entry of that column. -/
def affine {M K N : Nat} (x hn : (⟨2, ![M, K]⟩ : Shape).Idx → EReal) (ws wn : (⟨2, ![K, N]⟩ : Shape).Idx → EReal)
    (b : (⟨2, ![1, N]⟩ : Shape).Idx → EReal) : (⟨2, ![M, N]⟩ : Shape).Idx → EReal :=
  fun i => (∑ k : Fin K, x (ix2 (i 0) k) * ws (ix2 k (i 1))) + (∑ k : Fin K, hn (ix2 (i 0) k) * wn (ix2 k (i 1)))
    + b (ix2 (0 : Fin 1) (i 1))

/-- The layer at an index `i` depends only on row `i 0` of `x` and `hn`, column `i 1` of the weights and entry `i 1` of
    the bias row: operands that agree there (a block of each array, read at the block's own coordinates) give the same
    value. -/
theorem affine_congr {M M' K N N' : Nat} (x hn : (⟨2, ![M, K]⟩ : Shape).Idx → EReal) (x' hn' : (⟨2, ![M', K]⟩ : Shape).Idx → EReal)
    (ws wn : (⟨2, ![K, N]⟩ : Shape).Idx → EReal) (ws' wn' : (⟨2, ![K, N']⟩ : Shape).Idx → EReal)
    (b : (⟨2, ![1, N]⟩ : Shape).Idx → EReal) (b' : (⟨2, ![1, N']⟩ : Shape).Idx → EReal)
    (i : (⟨2, ![M, N]⟩ : Shape).Idx) (p : Fin M') (q : Fin N')
    (hx : ∀ k : Fin K, x' (ix2 p k) = x (ix2 (i 0) k)) (hh : ∀ k : Fin K, hn' (ix2 p k) = hn (ix2 (i 0) k))
    (hws : ∀ k : Fin K, ws' (ix2 k q) = ws (ix2 k (i 1))) (hwn : ∀ k : Fin K, wn' (ix2 k q) = wn (ix2 k (i 1)))
    (hb : b' (ix2 (0 : Fin 1) q) = b (ix2 (0 : Fin 1) (i 1))) :
    affine x' hn' ws' wn' b' (ix2 p q) = affine x hn ws wn b i := by
  unfold affine
  show (∑ k : Fin K, x' (ix2 p k) * ws' (ix2 k q)) + (∑ k : Fin K, hn' (ix2 p k) * wn' (ix2 k q)) + b' (ix2 (0 : Fin 1) q)
    = (∑ k : Fin K, x (ix2 (i 0) k) * ws (ix2 k (i 1))) + (∑ k : Fin K, hn (ix2 (i 0) k) * wn (ix2 k (i 1))) + b (ix2 (0 : Fin 1) (i 1))
  simp only [hx, hh, hws, hwn, hb]

end PlainDot

end
-- ==== Proof.Body.lean ====
/-
  What one grid point computes. Each body loads its five blocks whole — 5000 rows of the features and of the
  neighbour means, the two weight matrices, the bias row —, multiplies rows by weights on the matrix unit into a
  zero accumulator (the roundings to bf16 on the way in are the identity over the extended reals), adds the two
  products and the broadcast bias, and (first layer only) takes the maximum with zero. At row p and column q that is
  ∑ₖ x[p,k]·Ws[k,q] + ∑ₖ hn[p,k]·Wn[k,q] + b[0,q], under max(·, 0) in the first layer.
-/
import proofs.«410319_j48344151884052_1_alg».proof.Proof.Gen.KernelIdeal.Skeleton
import proofs.«410319_j48344151884052_1_alg».proof.Proof.LibPlainDot
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-! ## The first layer's product record: [5000, 128] × [128, 256] -/

theorem lhsA_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhsA_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhsA_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhsA_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The matrix unit's product into a zero accumulator, at an index: the sum over the contracted coordinate. -/
theorem matmulA_apply {φ₁ φ₂ : FTy} (l : FVec Ideal S5000x128 φ₁) (r : FVec Ideal S128x256 φ₂) (i : S5000x256.Idx) :
    matmul dot_S5000x128_S128x256_S5000x256_1_0_0_1_n_n none l r (constant S5000x256 .f32 0x00000000#32) i
      = ∑ k : Fin 128, l (ix2 (i 0) k) * r (ix2 k (i 1)) := by
  simp only [matmul]
  rw [Ideal.matmul_constant_zero_apply]
  exact PlainDot.sum_contr dot_S5000x128_S128x256_S5000x256_1_0_0_1_n_n rfl rfl lhsA_0 lhsA_1 rhsA_0 rhsA_1 l r i

/-! ## The second layer's product record: [5000, 256] × [256, 2] -/

theorem lhsB_0 (i : S5000x2.Idx) (q : dot_S5000x256_S256x2_S5000x2_1_0_0_1_n_n.contr.Idx) :
    (dot_S5000x256_S256x2_S5000x2_1_0_0_1_n_n.lhsIdx i q 0).val = (i 0).val := by
  unfold DotDims.lhsIdx
  rw [dif_neg (show ¬(0 : Fin S5000x256.rank) ∈ dot_S5000x256_S256x2_S5000x2_1_0_0_1_n_n.lhsBatch by decide), dif_pos (show (0 : Fin S5000x256.rank) ∈ dot_S5000x256_S256x2_S5000x2_1_0_0_1_n_n.lhsNonContracting by decide)]
  rfl
theorem lhsB_1 (i : S5000x2.Idx) (q : dot_S5000x256_S256x2_S5000x2_1_0_0_1_n_n.contr.Idx) :
    (dot_S5000x256_S256x2_S5000x2_1_0_0_1_n_n.lhsIdx i q 1).val = (q ⟨0, by decide⟩).val :=
  dot_S5000x256_S256x2_S5000x2_1_0_0_1_n_n.lhsIdx_val_of_single rfl i q
theorem rhsB_0 (i : S5000x2.Idx) (q : dot_S5000x256_S256x2_S5000x2_1_0_0_1_n_n.contr.Idx) :
    (dot_S5000x256_S256x2_S5000x2_1_0_0_1_n_n.rhsIdx i q 0).val = (q ⟨0, by decide⟩).val :=
  dot_S5000x256_S256x2_S5000x2_1_0_0_1_n_n.rhsIdx_val_of_single rfl i q
theorem rhsB_1 (i : S5000x2.Idx) (q : dot_S5000x256_S256x2_S5000x2_1_0_0_1_n_n.contr.Idx) :
    (dot_S5000x256_S256x2_S5000x2_1_0_0_1_n_n.rhsIdx i q 1).val = (i 1).val := by
  unfold DotDims.rhsIdx
  rw [dif_neg (show ¬(1 : Fin S256x2.rank) ∈ dot_S5000x256_S256x2_S5000x2_1_0_0_1_n_n.rhsBatch by decide), dif_pos (show (1 : Fin S256x2.rank) ∈ dot_S5000x256_S256x2_S5000x2_1_0_0_1_n_n.rhsNonContracting by decide)]
  rfl

theorem matmulB_apply {φ₁ φ₂ : FTy} (l : FVec Ideal S5000x256 φ₁) (r : FVec Ideal S256x2 φ₂) (i : S5000x2.Idx) :
    matmul dot_S5000x256_S256x2_S5000x2_1_0_0_1_n_n none l r (constant S5000x2 .f32 0x00000000#32) i
      = ∑ k : Fin 256, l (ix2 (i 0) k) * r (ix2 k (i 1)) := by
  simp only [matmul]
  rw [Ideal.matmul_constant_zero_apply]
  exact PlainDot.sum_contr dot_S5000x256_S256x2_S5000x2_1_0_0_1_n_n rfl rfl lhsB_0 lhsB_1 rhsB_0 rhsB_1 l r i

/-! ## The bias row broadcast down the block -/

theorem biasA_apply (b : FVec Ideal S1x256 .f32) (p : Fin 5000) (q : Fin 256) :
    broadcastTo S5000x256 b broadcasts_S1x256_S5000x256 (ix2 p q) = b (ix2 (0 : Fin 1) q) :=
  broadcastTo_apply b _ (ix2 p q) (ix2 (0 : Fin 1) q) (fun a => by
    match a with
    | ⟨0, _⟩ => rfl
    | ⟨1, _⟩ => rfl)

theorem biasB_apply (b : FVec Ideal S1x2 .f32) (p : Fin 5000) (q : Fin 2) :
    broadcastTo S5000x2 b broadcasts_S1x2_S5000x2 (ix2 p q) = b (ix2 (0 : Fin 1) q) :=
  broadcastTo_apply b _ (ix2 p q) (ix2 (0 : Fin 1) q) (fun a => by
    match a with
    | ⟨0, _⟩ => rfl
    | ⟨1, _⟩ => rfl)

/-! ## The payloads at an index -/

/-- The first layer's stored block at row p, column q. -/
theorem payA_apply (x hn : Vec Ideal S5000x128 .f32) (ws wn : Vec Ideal S128x256 .f32) (b : Vec Ideal S1x256 .f32)
    (p : Fin 5000) (q : Fin 256) :
    k0_pay1 (F := Ideal) x hn ws wn b (ix2 p q)
      = max (PlainDot.affine x hn ws wn b (ix2 p q)) (Ideal.ofBits .f32 0x00000000#32) := by
  unfold k0_pay1
  simp only [shapeCast_self]
  show max (matmul (F := Ideal) dot_S5000x128_S128x256_S5000x256_1_0_0_1_n_n none (truncf (F := Ideal) .bf16 x bitsLt_bf16_f32) (truncf (F := Ideal) .bf16 ws bitsLt_bf16_f32) (constant (F := Ideal) S5000x256 .f32 0x00000000#32) (ix2 p q)
      + matmul (F := Ideal) dot_S5000x128_S128x256_S5000x256_1_0_0_1_n_n none (truncf (F := Ideal) .bf16 hn bitsLt_bf16_f32) (truncf (F := Ideal) .bf16 wn bitsLt_bf16_f32) (constant (F := Ideal) S5000x256 .f32 0x00000000#32) (ix2 p q)
      + broadcastTo S5000x256 b broadcasts_S1x256_S5000x256 (ix2 p q)) (Ideal.ofBits .f32 0x00000000#32) = _
  rw [matmulA_apply, matmulA_apply, biasA_apply]
  rfl

/-- The second layer's stored block at row p, column q. -/
theorem payB_apply (x hn : Vec Ideal S5000x256 .f32) (ws wn : Vec Ideal S256x2 .f32) (b : Vec Ideal S1x2 .f32)
    (p : Fin 5000) (q : Fin 2) :
    k1_pay1 (F := Ideal) x hn ws wn b (ix2 p q) = PlainDot.affine x hn ws wn b (ix2 p q) := by
  unfold k1_pay1
  simp only [shapeCast_self]
  show matmul (F := Ideal) dot_S5000x256_S256x2_S5000x2_1_0_0_1_n_n none (truncf (F := Ideal) .bf16 x bitsLt_bf16_f32) (truncf (F := Ideal) .bf16 ws bitsLt_bf16_f32) (constant (F := Ideal) S5000x2 .f32 0x00000000#32) (ix2 p q)
      + matmul (F := Ideal) dot_S5000x256_S256x2_S5000x2_1_0_0_1_n_n none (truncf (F := Ideal) .bf16 hn bitsLt_bf16_f32) (truncf (F := Ideal) .bf16 wn bitsLt_bf16_f32) (constant (F := Ideal) S5000x2 .f32 0x00000000#32) (ix2 p q)
      + broadcastTo S5000x2 b broadcasts_S1x2_S5000x2 (ix2 p q) = _
  rw [matmulB_apply, matmulB_apply, biasB_apply]
  rfl

end Cert.KernelIdeal.Body

end
-- ==== Proof.Regions.lean ====
/-
  From blocks to arrays. Each pallas_call walks ten grid points; point t stages rows [5000·t, 5000·t + 5000) of the
  features and of the neighbour means together with the two weight matrices and the bias row whole, and writes the
  same rows of the result back. What point t writes is the layer's value on those rows — a row of the result needs
  only that row of the two row-blocked operands —, the ten row blocks tile the result, so after the call the result
  array is the layer's value everywhere: max(x·Ws + hn·Wn + b, 0) after the first call, x·Ws + hn·Wn + b after the
  second. Stated at the contents `V` the call finds in its operands' buffers, whatever they are.
-/
import proofs.«410319_j48344151884052_1_alg».proof.Proof.Gen.KernelIdeal.Frame
import proofs.«410319_j48344151884052_1_alg».proof.Proof.Body
import Idealize.ShloMosaic.Lib.Pipeline.Value

set_option maxRecDepth 16384

noncomputable section

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Body

variable (V : (c : Dev nD) → (b : Ref sig .tc) → Buf (Elt Ideal) ((c : Thread nD τ).loc b))

theorem zero_offsets : (![0, 0] : Fin 2 → Nat) = fun _ => 0 := funext fun a => by fin_cases a <;> rfl

/-! ## The first call -/

/-- The first call's operand arrays, as it finds them. -/
abbrev featA (c : Dev nD) : FVec Ideal S50000x128 .f32 := V c main_arg0
abbrev meanA (c : Dev nD) : FVec Ideal S50000x128 .f32 := V c main_v11
abbrev wselfA (c : Dev nD) : FVec Ideal S128x256 .f32 := V c main_arg3
abbrev wneighA (c : Dev nD) : FVec Ideal S128x256 .f32 := V c main_arg4
abbrev biasA (c : Dev nD) : FVec Ideal S1x256 .f32 := V c main_v12

/-- The first layer over the whole arrays: max(x·Ws + hn·Wn + b, 0), index by index. -/
def layerA (c : Dev nD) : FVec Ideal S50000x256 .f32 := fun i =>
  max (PlainDot.affine (featA V c) (meanA V c) (wselfA V c) (wneighA V c) (biasA V c) i) (Ideal.ofBits .f32 0x00000000#32)

/-- The printed index maps over the grid: the two row-blocked operands move with the result's row block, every other
    block index is zero, and the result's row block index is below ten. -/
theorem idxA : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every row block of the result is some point's. -/
theorem ontoA : ∀ r : Fin 10, ∃ t : Fin cfg0.N, win0_5.index t = ![r.val, 0] :=
  (by decide +kernel : ∀ r : Fin 10, ∃ t : Fin grid0.N, win0_5.index t = ![r.val, 0])

/-- What point t writes back is its row block of the layer's value. -/
theorem flushedA (c : Dev nD) (t : Fin cfg0.N) :
    (dat0 V c).flushed 5 t = ((cfg0.win 5).blk t).view.read (Elt Ideal) (layerA V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x256) zero_offsets,
    View.ld_unit_zero (S := S1x256) zero_offsets]
  obtain ⟨e00, e01, e10, e11, e20, e21, e30, e31, e40, e41, -, e51⟩ := idxA t
  funext j
  obtain ⟨p, q, rfl⟩ : ∃ (p : Fin 5000) (q : Fin 256), j = ix2 p q := ⟨j 0, j 1, eq_ix2 j⟩
  refine (payA_apply (iblk0 V c 0 t) (iblk0 V c 1 t) (iblk0 V c 2 t) (iblk0 V c 3 t) (iblk0 V c 4 t) p q).trans ?_
  refine congrArg (fun v => max v (Ideal.ofBits .f32 0x00000000#32)) ?_
  refine PlainDot.affine_congr (featA V c) (meanA V c) (iblk0 V c 0 t) (iblk0 V c 1 t) (wselfA V c) (wneighA V c)
    (iblk0 V c 2 t) (iblk0 V c 3 t) (biasA V c) (iblk0 V c 4 t) (((cfg0.win 5).blk t).view.emb (ix2 p q)) p q ?_ ?_ ?_ ?_ ?_
  · intro k
    show V c main_arg0 (((cfg0.win 0).blk t).view.emb (ix2 p k)) = V c main_arg0 (ix2 ((((cfg0.win 5).blk t).view.emb (ix2 p q)) 0) k)
    refine congrArg (V c main_arg0) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · intro k
    show V c main_v11 (((cfg0.win 1).blk t).view.emb (ix2 p k)) = V c main_v11 (ix2 ((((cfg0.win 5).blk t).view.emb (ix2 p q)) 0) k)
    refine congrArg (V c main_v11) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · intro k
    show V c main_arg3 (((cfg0.win 2).blk t).view.emb (ix2 k q)) = V c main_arg3 (ix2 k ((((cfg0.win 5).blk t).view.emb (ix2 p q)) 1))
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 256 + 1 * q.val = win0_5.index t (1 : Fin 2) * 256 + 1 * q.val; omega
  · intro k
    show V c main_arg4 (((cfg0.win 3).blk t).view.emb (ix2 k q)) = V c main_arg4 (ix2 k ((((cfg0.win 5).blk t).view.emb (ix2 p q)) 1))
    refine congrArg (V c main_arg4) (funext fun a => Fin.ext ?_)
    match a with
    | ⟨0, _⟩ => show win0_3.index t (0 : Fin 2) * 128 + 1 * k.val = k.val; omega
    | ⟨1, _⟩ => show win0_3.index t (1 : Fin 2) * 256 + 1 * q.val = win0_5.index t (1 : Fin 2) * 256 + 1 * q.val; omega
  · show V c main_v12 (((cfg0.win 4).blk t).view.emb (ix2 (0 : Fin 1) q)) = V c main_v12 (ix2 (0 : Fin 1) ((((cfg0.win 5).blk t).view.emb (ix2 p q)) 1))
    refine congrArg (V c main_v12) (funext fun a => Fin.ext ?_)
    match a with
    | ⟨0, _⟩ => show win0_4.index t (0 : Fin 2) * 1 + 1 * 0 = 0; omega
    | ⟨1, _⟩ => show win0_4.index t (1 : Fin 2) * 256 + 1 * q.val = win0_5.index t (1 : Fin 2) * 256 + 1 * q.val; omega

/-- An index of the result is in point t's block iff each coordinate is in the block's range on its axis. -/
theorem mem_blkA (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v13).slice (win0_5.rect t)).set ↔ _
  rw [View.set_slice_whole, Rect.mem_set_unit]
  exact Iff.rfl

/-- The ten row blocks cover the result: row r lies in block r / 5000. -/
theorem coverA (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := ontoA ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blkA]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 256 ≤ (i 1).val ∧ (i 1).val < win0_5.index t (1 : Fin 2) * 256 + 256; omega

/-- After the first call its result array is the first layer's value. -/
theorem arrayA (c : Dev nD) : (dat0 V c).arrAt 5 cfg0.N = layerA V c :=
  (dat0 V c).arrAt_eq_of_cover 5 (layerA V c) (fun t _ => flushedA V c t) coverA

/-! ## The second call -/

/-- The second call's operand arrays, as it finds them. -/
abbrev featB (c : Dev nD) : FVec Ideal S50000x256 .f32 := V c main_v13
abbrev meanB (c : Dev nD) : FVec Ideal S50000x256 .f32 := V c main_v25
abbrev wselfB (c : Dev nD) : FVec Ideal S256x2 .f32 := V c main_arg6
abbrev wneighB (c : Dev nD) : FVec Ideal S256x2 .f32 := V c main_arg7
abbrev biasB (c : Dev nD) : FVec Ideal S1x2 .f32 := V c main_v26

/-- The second layer over the whole arrays: x·Ws + hn·Wn + b, index by index. -/
def layerB (c : Dev nD) : FVec Ideal S50000x2 .f32 :=
  PlainDot.affine (featB V c) (meanB V c) (wselfB V c) (wneighB V c) (biasB V c)

theorem idxB : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

theorem ontoB : ∀ r : Fin 10, ∃ t : Fin cfg1.N, win1_5.index t = ![r.val, 0] :=
  (by decide +kernel : ∀ r : Fin 10, ∃ t : Fin grid1.N, win1_5.index t = ![r.val, 0])

/-- What point t writes back is its row block of the layer's value. -/
theorem flushedB (c : Dev nD) (t : Fin cfg1.N) :
    (dat1 V c).flushed 5 t = ((cfg1.win 5).blk t).view.read (Elt Ideal) (layerB V c) := by
  show (cfg1.win 5).cut (grid1.coords t) ((dat1 V c).after 5 t) = _
  rw [after1_5]
  unfold out1_5
  rw [View.canon_unit_zero zero_offsets]
  simp only [View.ld_unit_zero (S := S5000x256) zero_offsets, View.ld_unit_zero (S := S256x2) zero_offsets,
    View.ld_unit_zero (S := S1x2) zero_offsets]
  obtain ⟨e00, e01, e10, e11, e20, e21, e30, e31, e40, e41, -, e51⟩ := idxB t
  funext j
  obtain ⟨p, q, rfl⟩ : ∃ (p : Fin 5000) (q : Fin 2), j = ix2 p q := ⟨j 0, j 1, eq_ix2 j⟩
  refine (payB_apply (iblk1 V c 0 t) (iblk1 V c 1 t) (iblk1 V c 2 t) (iblk1 V c 3 t) (iblk1 V c 4 t) p q).trans ?_
  refine PlainDot.affine_congr (featB V c) (meanB V c) (iblk1 V c 0 t) (iblk1 V c 1 t) (wselfB V c) (wneighB V c)
    (iblk1 V c 2 t) (iblk1 V c 3 t) (biasB V c) (iblk1 V c 4 t) (((cfg1.win 5).blk t).view.emb (ix2 p q)) p q ?_ ?_ ?_ ?_ ?_
  · intro k
    show V c main_v13 (((cfg1.win 0).blk t).view.emb (ix2 p k)) = V c main_v13 (ix2 ((((cfg1.win 5).blk t).view.emb (ix2 p q)) 0) k)
    refine congrArg (V c main_v13) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 256 + 1 * k.val = k.val; omega
  · intro k
    show V c main_v25 (((cfg1.win 1).blk t).view.emb (ix2 p k)) = V c main_v25 (ix2 ((((cfg1.win 5).blk t).view.emb (ix2 p q)) 0) k)
    refine congrArg (V c main_v25) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 256 + 1 * k.val = k.val; omega
  · intro k
    show V c main_arg6 (((cfg1.win 2).blk t).view.emb (ix2 k q)) = V c main_arg6 (ix2 k ((((cfg1.win 5).blk t).view.emb (ix2 p q)) 1))
    refine congrArg (V c main_arg6) (funext fun a => Fin.ext ?_)
    match a with
    | ⟨0, _⟩ => show win1_2.index t (0 : Fin 2) * 256 + 1 * k.val = k.val; omega
    | ⟨1, _⟩ => show win1_2.index t (1 : Fin 2) * 2 + 1 * q.val = win1_5.index t (1 : Fin 2) * 2 + 1 * q.val; omega
  · intro k
    show V c main_arg7 (((cfg1.win 3).blk t).view.emb (ix2 k q)) = V c main_arg7 (ix2 k ((((cfg1.win 5).blk t).view.emb (ix2 p q)) 1))
    refine congrArg (V c main_arg7) (funext fun a => Fin.ext ?_)
    match a with
    | ⟨0, _⟩ => show win1_3.index t (0 : Fin 2) * 256 + 1 * k.val = k.val; omega
    | ⟨1, _⟩ => show win1_3.index t (1 : Fin 2) * 2 + 1 * q.val = win1_5.index t (1 : Fin 2) * 2 + 1 * q.val; omega
  · show V c main_v26 (((cfg1.win 4).blk t).view.emb (ix2 (0 : Fin 1) q)) = V c main_v26 (ix2 (0 : Fin 1) ((((cfg1.win 5).blk t).view.emb (ix2 p q)) 1))
    refine congrArg (V c main_v26) (funext fun a => Fin.ext ?_)
    match a with
    | ⟨0, _⟩ => show win1_4.index t (0 : Fin 2) * 1 + 1 * 0 = 0; omega
    | ⟨1, _⟩ => show win1_4.index t (1 : Fin 2) * 2 + 1 * q.val = win1_5.index t (1 : Fin 2) * 2 + 1 * q.val; omega

theorem mem_blkB (t : Fin cfg1.N) (i : S50000x2.Idx) :
    i ∈ ((cfg1.win 5).blk t).view.set ↔ ∀ a : Fin 2, win1_5.index t a * S5000x2.size a ≤ (i a).val ∧ (i a).val < win1_5.index t a * S5000x2.size a + S5000x2.size a := by
  show i ∈ ((View.whole main_v27).slice (win1_5.rect t)).set ↔ _
  rw [View.set_slice_whole, Rect.mem_set_unit]
  exact Iff.rfl

theorem coverB (i : S50000x2.Idx) : ∃ t : Fin cfg1.N, (cfg1.win 5).flush t = true ∧ i ∈ ((cfg1.win 5).blk t).view.set := by
  have hi0 : (i 0).val < 50000 := (i 0).isLt
  have hi1 : (i 1).val < 2 := (i 1).isLt
  obtain ⟨t, ht⟩ := ontoB ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blkB]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 2 ≤ (i 1).val ∧ (i 1).val < win1_5.index t (1 : Fin 2) * 2 + 2; omega

/-- After the second call its result array is the second layer's value. -/
theorem arrayB (c : Dev nD) : (dat1 V c).arrAt 5 cfg1.N = layerB V c :=
  (dat1 V c).arrAt_eq_of_cover 5 (layerB V c) (fun t _ => flushedB V c t) coverB

end Cert.KernelIdeal.Regions

end
-- ==== Proof.IndexRange.lean ====
/-
  The kernel gathers rows with jnp.take at its default fill mode: a negative index is wrapped by the table's height,
  the wrapped index is tested against [0, 49999], the row is gathered (the gather itself clamps), and where the
  test fails the row is replaced by the fill value. The reference indexes `x[src]`: the same wrap and the same
  gather, no test. Under the precondition every index lies in [-50000, 50000), so the wrapped index lies in
  [0, 49999], the test passes at every edge, and the filled gather IS the plain gather.
-/
import proofs.«410319_j48344151884052_1_alg».proof.KernelIdeal
import proofs.«410319_j48344151884052_1_alg».proof.Proof.Gen.KernelIdeal
import proofs.«410319_j48344151884052_1_alg».proof.Pre_finite_inputs
import proofs.«410319_j48344151884052_1_alg».proof.Proof.Gen.Pre_finite_inputs
import Idealize.ShloMosaic.Lib.ReduceAll
import Idealize.ShloMosaic.Lib.Affine
import Idealize.ShloMosaic.Lib.ValueIdx

noncomputable section

namespace Cert.KernelIdeal.IndexRange

open Idealize.ShloMosaic Cert.KernelIdeal Cert.KernelIdeal.Gen

variable {F : FTy → Type} [FloatOps F]

/-! ## One index word -/

theorem toInt_lo : (4294917296#32 : BitVec 32).toInt = -50000 := by decide
theorem toInt_hi : (50000#32 : BitVec 32).toInt = 50000 := by decide

/-- A word in [-50000, 50000), wrapped by 50000 when negative, lies in [0, 49999]: the sum does not overflow. -/
theorem wrap_inRange (s : BitVec 32) (h1 : (4294917296#32 : BitVec 32).toInt ≤ s.toInt) (h2 : s.toInt < (50000#32 : BitVec 32).toInt) :
    IntOp.andi (IntOp.cmpi .sge (Scalar.select (IntOp.cmpi .slt s 0#32) (IntOp.addi s 50000#32) s) 0#32)
      (IntOp.cmpi .sle (Scalar.select (IntOp.cmpi .slt s 0#32) (IntOp.addi s 50000#32) s) 49999#32) = 1#1 := by
  rw [toInt_lo] at h1; rw [toInt_hi] at h2
  have h0 : (0#32 : BitVec 32).toInt = 0 := by decide
  have h9 : (49999#32 : BitVec 32).toInt = 49999 := by decide
  rw [IntOp.andi_eq_one, IntOp.cmpi_sge, IntOp.cmpi_sle, h0, h9]
  by_cases hneg : IntOp.cmpi .slt s 0#32 = 1#1
  · rw [hneg, ValueIdx.select_one]
    rw [IntOp.cmpi_slt, h0] at hneg
    have hadd : (IntOp.addi s 50000#32).toInt = s.toInt + 50000 := by
      unfold IntOp.addi
      rw [BitVec.toInt_add, toInt_hi]
      dsimp only [Int.bmod]
      split <;> omega
    rw [hadd]; omega
  · rw [ValueIdx.eq_zero_of_ne_one hneg, ValueIdx.select_zero]
    rw [IntOp.cmpi_slt, h0] at hneg
    omega

/-- A fold by `and` from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self), show IntOp.andi 1#1 1#1 = 1#1 from by decide]
    exact foldl_andi_ones f l fun n hn => h n (List.mem_cons_of_mem _ hn)

/-! ## The index column and its range test, as the kernel's take computes them -/

/-- The index column [E, 1]: each index, wrapped by the table's height when negative. -/
def wrapped (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 50000#32))) src)

/-- The take's test, per edge: the wrapped index is in [0, 49999] (an `and` over the column's one entry). -/
def inRange (idx : IVec S640000x1 32) : IVec S640000 1 :=
  Host.reduce IntOp.andi
    (andi (cmpi .sge idx (broadcastInDim S640000x1 ![] bcast_S_S640000x1 (constantI S_ 32 0#32)))
      (cmpi .sle idx (broadcastInDim S640000x1 ![0, 1] bcast_S1x1_S640000x1_0_1
        (broadcastInDim S1x1 ![1] bcast_S1_S1x1_1 (constantI S1 32 49999#32)))))
    (constantI S_ 1 1#1) reducesTo_S640000x1_S640000_d1 h_S_

/-- Every index in [-50000, 50000): the test passes at every edge. -/
theorem inRange_wrapped (src : IVec S640000 32)
    (hsrc : ∀ e : S640000.Idx, (4294917296#32 : BitVec 32).toInt ≤ (src e).toInt ∧ (src e).toInt < (50000#32 : BitVec 32).toInt) :
    inRange (wrapped src) = fun _ => 1#1 := by
  funext j
  unfold inRange
  rw [Host.reduce_eq_foldl]
  refine foldl_andi_ones _ _ fun i _ => ?_
  exact wrap_inRange _ (hsrc _).1 (hsrc _).2

/-! ## The filled gather is the gather -/

/-- jnp.take of the [50000, 128] table at its default mode: the gather, filled where the test fails. -/
def take128 (x : FVec F S50000x128 .f32) (src : IVec S640000 32) : FVec F S640000x128 .f32 :=
  select (broadcastInDim S640000x128 ![0] bcast_S640000_S640000x128_0 (inRange (wrapped src)))
    (Host.gather gather_S50000x128_S640000x1_S640000x128_1_0_n_n_0_1_1128 x (wrapped src))
    (broadcastInDim S640000x128 ![] bcast_S_S640000x128 (constant S_ .f32 0x7FC00000#32))

/-- The same of the [50000, 256] table. -/
def take256 (x : FVec F S50000x256 .f32) (src : IVec S640000 32) : FVec F S640000x256 .f32 :=
  select (broadcastInDim S640000x256 ![0] bcast_S640000_S640000x256_0 (inRange (wrapped src)))
    (Host.gather gather_S50000x256_S640000x1_S640000x256_1_0_n_n_0_1_1256 x (wrapped src))
    (broadcastInDim S640000x256 ![] bcast_S_S640000x256 (constant S_ .f32 0x7FC00000#32))

theorem take128_eq (x : FVec F S50000x128 .f32) (src : IVec S640000 32)
    (hsrc : ∀ e : S640000.Idx, (4294917296#32 : BitVec 32).toInt ≤ (src e).toInt ∧ (src e).toInt < (50000#32 : BitVec 32).toInt) :
    take128 x src = Host.gather gather_S50000x128_S640000x1_S640000x128_1_0_n_n_0_1_1128 x (wrapped src) := by
  unfold take128
  rw [inRange_wrapped src hsrc]
  funext j
  exact ValueIdx.select_one _ _

theorem take256_eq (x : FVec F S50000x256 .f32) (src : IVec S640000 32)
    (hsrc : ∀ e : S640000.Idx, (4294917296#32 : BitVec 32).toInt ≤ (src e).toInt ∧ (src e).toInt < (50000#32 : BitVec 32).toInt) :
    take256 x src = Host.gather gather_S50000x256_S640000x1_S640000x256_1_0_n_n_0_1_1256 x (wrapped src) := by
  unfold take256
  rw [inRange_wrapped src hsrc]
  funext j
  exact ValueIdx.select_one _ _

/-! ## The range, out of the printed precondition -/

instance : Subsingleton Cert.Pre_finite_inputs.S_.Idx := ⟨fun a b => funext fun d => d.elim0⟩

/-- The precondition's last conjunct, read back: every index word lies in [-50000, 50000). -/
theorem src_range (a0 : FVec F Cert.Pre_finite_inputs.S50000x128 .f32) (a1 a2 : IVec Cert.Pre_finite_inputs.S640000 32)
    (a3 a4 : FVec F Cert.Pre_finite_inputs.S128x256 .f32) (a5 : FVec F Cert.Pre_finite_inputs.S256 .f32)
    (a6 a7 : FVec F Cert.Pre_finite_inputs.S256x2 .f32) (a8 : FVec F Cert.Pre_finite_inputs.S2 .f32)
    (h : Cert.Pre_finite_inputs.fn (F := F) a0 a1 a2 a3 a4 a5 a6 a7 a8 = fun _ => 1#1) (e : Cert.Pre_finite_inputs.S640000.Idx) :
    (4294917296#32 : BitVec 32).toInt ≤ (a1 e).toInt ∧ (a1 e).toInt < (50000#32 : BitVec 32).toInt := by
  have h0 := congrFun h ValueIdx.ix0
  dsimp only [Cert.Pre_finite_inputs.fn, Cert.Pre_finite_inputs.fn_part1, Cert.Pre_finite_inputs.fn_part2] at h0
  have h1 := (IntOp.andi_eq_one.1 h0).2
  have h2 := Host.reduce_andi_all _ _ _ _ _ h1 e
  obtain ⟨hge, hlt⟩ := IntOp.andi_eq_one.1 h2
  exact ⟨IntOp.cmpi_sge.1 hge, IntOp.cmpi_slt.1 hlt⟩

end Cert.KernelIdeal.IndexRange

end
-- ==== Proof.HostRead.lean ====
/-
  The host lines before each pallas_call, read at the buffers the call takes. Before the first call: the filled
  gather of the features at the source indices, its segment mean over the destinations (the rows scatter-added into
  zeros, divided by the in-degree clamped below at one), and the bias as a row. Before the second call the same of
  the first call's result. No line writes an argument, nor the first call's result before the second call.
-/
import proofs.«410319_j48344151884052_1_alg».proof.Proof.Gen.KernelIdeal.Launch
import proofs.«410319_j48344151884052_1_alg».proof.Proof.IndexRange
import Idealize.ShloMosaic.Lib.StableHlo.Run

set_option maxRecDepth 8192

noncomputable section

namespace Cert.KernelIdeal.HostRead

open Idealize.ShloMosaic Idealize.ShloMosaic.TcCoe Idealize.ShloMosaic.StableHlo Idealize.SL.Sem
open Cert.KernelIdeal Cert.KernelIdeal.Gen Cert.KernelIdeal.IndexRange

variable {F : FTy → Type} [FloatOps F]

/-- The mean over each destination node of the messages sent to it: the [E, 128] messages scatter-added by destination
    into zeros, over the number of messages received (at least one). -/
def mean128 (msg : FVec F S640000x128 .f32) (dst : IVec S640000 32) : FVec F S50000x128 .f32 :=
  Host.divf
    (Host.scatterAdd scatter_S50000x128_S640000x1_S640000x128_1_0_0_1
      (broadcastInDim S50000x128 ![] bcast_S_S50000x128 (constant (F := F) S_ .f32 0x00000000#32))
      (broadcastInDim S640000x1 ![0] bcast_S640000_S640000x1_0 dst) msg)
    (broadcastInDim S50000x128 ![0, 1] bcast_S50000x1_S50000x128_0_1
      (maximumf
        (Host.scatterAdd scatter_S50000x1_S640000x1_S640000x1_1_0_0_1
          (broadcastInDim S50000x1 ![] bcast_S_S50000x1 (constant (F := F) S_ .f32 0x00000000#32))
          (broadcastInDim S640000x1 ![0] bcast_S640000_S640000x1_0 dst)
          (broadcastInDim S640000x1 ![] bcast_S_S640000x1 (constant (F := F) S_ .f32 0x3F800000#32)))
        (broadcastInDim S50000x1 ![] bcast_S_S50000x1 (constant (F := F) S_ .f32 0x3F800000#32))))

/-- The same of [E, 256] messages. -/
def mean256 (msg : FVec F S640000x256 .f32) (dst : IVec S640000 32) : FVec F S50000x256 .f32 :=
  Host.divf
    (Host.scatterAdd scatter_S50000x256_S640000x1_S640000x256_1_0_0_1
      (broadcastInDim S50000x256 ![] bcast_S_S50000x256 (constant (F := F) S_ .f32 0x00000000#32))
      (broadcastInDim S640000x1 ![0] bcast_S640000_S640000x1_0 dst) msg)
    (broadcastInDim S50000x256 ![0, 1] bcast_S50000x1_S50000x256_0_1
      (maximumf
        (Host.scatterAdd scatter_S50000x1_S640000x1_S640000x1_1_0_0_1
          (broadcastInDim S50000x1 ![] bcast_S_S50000x1 (constant (F := F) S_ .f32 0x00000000#32))
          (broadcastInDim S640000x1 ![0] bcast_S640000_S640000x1_0 dst)
          (broadcastInDim S640000x1 ![] bcast_S_S640000x1 (constant (F := F) S_ .f32 0x3F800000#32)))
        (broadcastInDim S50000x1 ![] bcast_S_S50000x1 (constant (F := F) S_ .f32 0x3F800000#32))))

/-! ## Before the first call -/

/-- The neighbour means the first call takes. -/
theorem before0_means (W : Valuation τ sig (Elt F)) :
    StableHlo.after hostOps0_1 (StableHlo.after hostOps0 W) (Proc.devRef .tc main_v11)
      = mean128 (take128 (W (Proc.devRef .tc main_arg0)) (W (Proc.devRef .tc main_arg1))) (W (Proc.devRef .tc main_arg2)) := by
  after_results_simp
  simp only [TRef.toBuf, TRef.ofBuf, cast_eq]
  rfl

/-- The bias row the first call takes. -/
theorem before0_bias (W : Valuation τ sig (Elt F)) :
    StableHlo.after hostOps0_1 (StableHlo.after hostOps0 W) (Proc.devRef .tc main_v12)
      = shapeCast S1x256 (W (Proc.devRef .tc main_arg5)) shapeCasts_S256_S1x256 := by
  after_results_simp
  rfl

theorem before0_main_arg0 (W : Valuation τ sig (Elt F)) :
    StableHlo.after hostOps0_1 (StableHlo.after hostOps0 W) (Proc.devRef .tc main_arg0) = W (Proc.devRef .tc main_arg0) := by
  after_results_simp
theorem before0_main_arg1 (W : Valuation τ sig (Elt F)) :
    StableHlo.after hostOps0_1 (StableHlo.after hostOps0 W) (Proc.devRef .tc main_arg1) = W (Proc.devRef .tc main_arg1) := by
  after_results_simp
theorem before0_main_arg2 (W : Valuation τ sig (Elt F)) :
    StableHlo.after hostOps0_1 (StableHlo.after hostOps0 W) (Proc.devRef .tc main_arg2) = W (Proc.devRef .tc main_arg2) := by
  after_results_simp
theorem before0_main_arg3 (W : Valuation τ sig (Elt F)) :
    StableHlo.after hostOps0_1 (StableHlo.after hostOps0 W) (Proc.devRef .tc main_arg3) = W (Proc.devRef .tc main_arg3) := by
  after_results_simp
theorem before0_main_arg4 (W : Valuation τ sig (Elt F)) :
    StableHlo.after hostOps0_1 (StableHlo.after hostOps0 W) (Proc.devRef .tc main_arg4) = W (Proc.devRef .tc main_arg4) := by
  after_results_simp
theorem before0_main_arg6 (W : Valuation τ sig (Elt F)) :
    StableHlo.after hostOps0_1 (StableHlo.after hostOps0 W) (Proc.devRef .tc main_arg6) = W (Proc.devRef .tc main_arg6) := by
  after_results_simp
theorem before0_main_arg7 (W : Valuation τ sig (Elt F)) :
    StableHlo.after hostOps0_1 (StableHlo.after hostOps0 W) (Proc.devRef .tc main_arg7) = W (Proc.devRef .tc main_arg7) := by
  after_results_simp
theorem before0_main_arg8 (W : Valuation τ sig (Elt F)) :
    StableHlo.after hostOps0_1 (StableHlo.after hostOps0 W) (Proc.devRef .tc main_arg8) = W (Proc.devRef .tc main_arg8) := by
  after_results_simp

/-! ## Before the second call -/

/-- The neighbour means the second call takes: of the first call's result. -/
theorem before1_means (W : Valuation τ sig (Elt F)) :
    StableHlo.after hostOps1_1 (StableHlo.after hostOps1 W) (Proc.devRef .tc main_v25)
      = mean256 (take256 (W (Proc.devRef .tc main_v13)) (W (Proc.devRef .tc main_arg1))) (W (Proc.devRef .tc main_arg2)) := by
  after_results_simp
  simp only [TRef.toBuf, TRef.ofBuf, cast_eq]
  rfl

/-- The bias row the second call takes. -/
theorem before1_bias (W : Valuation τ sig (Elt F)) :
    StableHlo.after hostOps1_1 (StableHlo.after hostOps1 W) (Proc.devRef .tc main_v26)
      = shapeCast S1x2 (W (Proc.devRef .tc main_arg8)) shapeCasts_S2_S1x2 := by
  after_results_simp
  rfl

theorem before1_main_v13 (W : Valuation τ sig (Elt F)) :
    StableHlo.after hostOps1_1 (StableHlo.after hostOps1 W) (Proc.devRef .tc main_v13) = W (Proc.devRef .tc main_v13) := by
  after_results_simp
theorem before1_main_arg6 (W : Valuation τ sig (Elt F)) :
    StableHlo.after hostOps1_1 (StableHlo.after hostOps1 W) (Proc.devRef .tc main_arg6) = W (Proc.devRef .tc main_arg6) := by
  after_results_simp
theorem before1_main_arg7 (W : Valuation τ sig (Elt F)) :
    StableHlo.after hostOps1_1 (StableHlo.after hostOps1 W) (Proc.devRef .tc main_arg7) = W (Proc.devRef .tc main_arg7) := by
  after_results_simp

end Cert.KernelIdeal.HostRead

end
-- ==== Proof.KernelValue.lean ====
/-
  The kernel's result as one function of its arguments. The run's last boundary holds the second call's result array;
  that array is the second layer of what the call found in its operands (Regions), which are the first call's result,
  its filled gather's segment mean, the second pair of weights and the second bias as a row (HostRead, the lines
  between the calls); and the first call's result is the first layer of the features, their filled gather's segment
  mean, the first pair of weights and the first bias as a row. No line and no call writes an argument, so each
  argument is read back as launched.
-/
import proofs.«410319_j48344151884052_1_alg».proof.Proof.Gen.KernelIdeal.Frame
import proofs.«410319_j48344151884052_1_alg».proof.Proof.Regions
import proofs.«410319_j48344151884052_1_alg».proof.Proof.HostRead

set_option maxRecDepth 16384

noncomputable section

namespace Cert.KernelIdeal.Closed

open Idealize.ShloMosaic Idealize.ShloMosaic.TcCoe Idealize.SL.Sem
open Cert.KernelIdeal Cert.KernelIdeal.Gen Cert.KernelIdeal.IndexRange Cert.KernelIdeal.HostRead

/-- The hidden layer: max(x·W1s + mean(take(x, src), dst)·W1n + b1, 0). -/
def hidden (x : FVec Ideal S50000x128 .f32) (src dst : IVec S640000 32) (w1s w1n : FVec Ideal S128x256 .f32)
    (b1 : FVec Ideal S256 .f32) : FVec Ideal S50000x256 .f32 := fun i =>
  max (PlainDot.affine x (mean128 (take128 x src) dst) w1s w1n (shapeCast S1x256 b1 shapeCasts_S256_S1x256) i)
    (Ideal.ofBits .f32 0x00000000#32)

/-- The output layer over a hidden layer h: h·W2s + mean(take(h, src), dst)·W2n + b2. -/
def logits (h : FVec Ideal S50000x256 .f32) (src dst : IVec S640000 32) (w2s w2n : FVec Ideal S256x2 .f32)
    (b2 : FVec Ideal S2 .f32) : FVec Ideal S50000x2 .f32 :=
  PlainDot.affine h (mean256 (take256 h src) dst) w2s w2n (shapeCast S1x2 b2 shapeCasts_S2_S1x2)

variable (m : (ℓ : Loc nD τ sig) → Buf (Elt Ideal) ℓ) (ρ : Dev nD → PrngReg)

/-- After the first call its result buffer holds the hidden layer of the arguments. -/
theorem first_result (c : Dev nD) :
    W3 m ρ c (Proc.devRef .tc main_v13)
      = hidden (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W3_arr m ρ c 5).trans ?_
  rw [Regions.arrayA (V2 m ρ) c]
  have e0 : Regions.featA (V2 m ρ) c = m ((c : Thread nD τ).loc main_arg0) := before0_main_arg0 (W0 m ρ c)
  have e1 : Regions.meanA (V2 m ρ) c
      = mean128 (take128 (m ((c : Thread nD τ).loc main_arg0)) (m ((c : Thread nD τ).loc main_arg1))) (m ((c : Thread nD τ).loc main_arg2)) :=
    before0_means (W0 m ρ c)
  have e2 : Regions.wselfA (V2 m ρ) c = m ((c : Thread nD τ).loc main_arg3) := before0_main_arg3 (W0 m ρ c)
  have e3 : Regions.wneighA (V2 m ρ) c = m ((c : Thread nD τ).loc main_arg4) := before0_main_arg4 (W0 m ρ c)
  have e4 : Regions.biasA (V2 m ρ) c = shapeCast S1x256 (m ((c : Thread nD τ).loc main_arg5)) shapeCasts_S256_S1x256 :=
    before0_bias (W0 m ρ c)
  unfold Regions.layerA hidden
  rw [e0, e1, e2, e3, e4]

/-- An argument no region-0 window stages is, after the first call, as launched. -/
theorem after_first_arg1 (c : Dev nD) : W3 m ρ c (Proc.devRef .tc main_arg1) = m ((c : Thread nD τ).loc main_arg1) :=
  (W3_of_ne m ρ c main_arg1 (by decide)).trans (before0_main_arg1 (W0 m ρ c))
theorem after_first_arg2 (c : Dev nD) : W3 m ρ c (Proc.devRef .tc main_arg2) = m ((c : Thread nD τ).loc main_arg2) :=
  (W3_of_ne m ρ c main_arg2 (by decide)).trans (before0_main_arg2 (W0 m ρ c))
theorem after_first_arg6 (c : Dev nD) : W3 m ρ c (Proc.devRef .tc main_arg6) = m ((c : Thread nD τ).loc main_arg6) :=
  (W3_of_ne m ρ c main_arg6 (by decide)).trans (before0_main_arg6 (W0 m ρ c))
theorem after_first_arg7 (c : Dev nD) : W3 m ρ c (Proc.devRef .tc main_arg7) = m ((c : Thread nD τ).loc main_arg7) :=
  (W3_of_ne m ρ c main_arg7 (by decide)).trans (before0_main_arg7 (W0 m ρ c))
theorem after_first_arg8 (c : Dev nD) : W3 m ρ c (Proc.devRef .tc main_arg8) = m ((c : Thread nD τ).loc main_arg8) :=
  (W3_of_ne m ρ c main_arg8 (by decide)).trans (before0_main_arg8 (W0 m ρ c))

/-- After the run the result buffer holds the output layer of the hidden layer of the arguments. -/
theorem result (c : Dev nD) :
    W6 m ρ c (Proc.devRef .tc main_v27)
      = logits
          (hidden (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)))
          (m ((c : Thread nD τ).loc main_arg1)) (m ((c : Thread nD τ).loc main_arg2))
          (m ((c : Thread nD τ).loc main_arg6)) (m ((c : Thread nD τ).loc main_arg7)) (m ((c : Thread nD τ).loc main_arg8)) := by
  refine (W6_arr m ρ c 5).trans ?_
  rw [Regions.arrayB (V5 m ρ) c]
  have e0 : Regions.featB (V5 m ρ) c = W3 m ρ c (Proc.devRef .tc main_v13) := before1_main_v13 (W3 m ρ c)
  have e1 : Regions.meanB (V5 m ρ) c
      = mean256 (take256 (W3 m ρ c (Proc.devRef .tc main_v13)) (W3 m ρ c (Proc.devRef .tc main_arg1))) (W3 m ρ c (Proc.devRef .tc main_arg2)) :=
    before1_means (W3 m ρ c)
  have e2 : Regions.wselfB (V5 m ρ) c = W3 m ρ c (Proc.devRef .tc main_arg6) := before1_main_arg6 (W3 m ρ c)
  have e3 : Regions.wneighB (V5 m ρ) c = W3 m ρ c (Proc.devRef .tc main_arg7) := before1_main_arg7 (W3 m ρ c)
  have e4 : Regions.biasB (V5 m ρ) c = shapeCast S1x2 (W3 m ρ c (Proc.devRef .tc main_arg8)) shapeCasts_S2_S1x2 :=
    before1_bias (W3 m ρ c)
  unfold Regions.layerB logits
  rw [e0, e1, e2, e3, e4, first_result m ρ c, after_first_arg1 m ρ c, after_first_arg2 m ρ c, after_first_arg6 m ρ c,
    after_first_arg7 m ρ c, after_first_arg8 m ρ c]

end Cert.KernelIdeal.Closed

end
-- ==== Proof.RefForm.lean ====
/-
  The reference, read the same way. Its run ends at one nested term of the arguments: the output layer applied to the
  hidden layer, each layer `x @ W_self + mean(x[src], dst) @ W_neigh + b` with the products as whole-array
  dot_generals and the bias broadcast first to a row and then down the rows; the hidden layer under max(·, 0). At an
  index each dot_general is the sum over the contracted coordinate, so each layer is the same per-index formula the
  kernel's blocks compute, with the bias row `b[0, q] = b[q]`.
-/
import proofs.«410319_j48344151884052_1_alg».proof.Proof.Gen.ReferenceIdeal.Run
import proofs.«410319_j48344151884052_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.ReferenceIdeal.RefForm

open Idealize.ShloMosaic Idealize.ShloMosaic.TcCoe Idealize.ShloMosaic.ValueIdx Idealize.SL.Sem
open Cert.ReferenceIdeal Cert.ReferenceIdeal.Gen

/-! ## The hidden layer's product record: [50000, 128] × [128, 256] -/

theorem lhsA_0 (i : S50000x256.Idx) (q : dot_S50000x128_S128x256_S50000x256_1_0_0_1_n_n.contr.Idx) :
    (dot_S50000x128_S128x256_S50000x256_1_0_0_1_n_n.lhsIdx i q 0).val = (i 0).val := by
  unfold DotDims.lhsIdx
  rw [dif_neg (show ¬(0 : Fin S50000x128.rank) ∈ dot_S50000x128_S128x256_S50000x256_1_0_0_1_n_n.lhsBatch by decide), dif_pos (show (0 : Fin S50000x128.rank) ∈ dot_S50000x128_S128x256_S50000x256_1_0_0_1_n_n.lhsNonContracting by decide)]
  rfl
theorem lhsA_1 (i : S50000x256.Idx) (q : dot_S50000x128_S128x256_S50000x256_1_0_0_1_n_n.contr.Idx) :
    (dot_S50000x128_S128x256_S50000x256_1_0_0_1_n_n.lhsIdx i q 1).val = (q ⟨0, by decide⟩).val :=
  dot_S50000x128_S128x256_S50000x256_1_0_0_1_n_n.lhsIdx_val_of_single rfl i q
theorem rhsA_0 (i : S50000x256.Idx) (q : dot_S50000x128_S128x256_S50000x256_1_0_0_1_n_n.contr.Idx) :
    (dot_S50000x128_S128x256_S50000x256_1_0_0_1_n_n.rhsIdx i q 0).val = (q ⟨0, by decide⟩).val :=
  dot_S50000x128_S128x256_S50000x256_1_0_0_1_n_n.rhsIdx_val_of_single rfl i q
theorem rhsA_1 (i : S50000x256.Idx) (q : dot_S50000x128_S128x256_S50000x256_1_0_0_1_n_n.contr.Idx) :
    (dot_S50000x128_S128x256_S50000x256_1_0_0_1_n_n.rhsIdx i q 1).val = (i 1).val := by
  unfold DotDims.rhsIdx
  rw [dif_neg (show ¬(1 : Fin S128x256.rank) ∈ dot_S50000x128_S128x256_S50000x256_1_0_0_1_n_n.rhsBatch by decide), dif_pos (show (1 : Fin S128x256.rank) ∈ dot_S50000x128_S128x256_S50000x256_1_0_0_1_n_n.rhsNonContracting by decide)]
  rfl

/-- The host's product at an index: the sum over the contracted coordinate. -/
theorem dotA_apply {φ₁ φ₂ : FTy} (l : FVec Ideal S50000x128 φ₁) (r : FVec Ideal S128x256 φ₂) (i : S50000x256.Idx) :
    Host.dotGeneral (F := Ideal) dot_S50000x128_S128x256_S50000x256_1_0_0_1_n_n none l r i
      = ∑ k : Fin 128, l (ix2 (i 0) k) * r (ix2 k (i 1)) := by
  simp only [Host.dotGeneral]
  rw [Ideal.dotGeneral_apply]
  exact PlainDot.sum_contr dot_S50000x128_S128x256_S50000x256_1_0_0_1_n_n rfl rfl lhsA_0 lhsA_1 rhsA_0 rhsA_1 l r i

/-! ## The output layer's product record: [50000, 256] × [256, 2] -/

theorem lhsB_0 (i : S50000x2.Idx) (q : dot_S50000x256_S256x2_S50000x2_1_0_0_1_n_n.contr.Idx) :
    (dot_S50000x256_S256x2_S50000x2_1_0_0_1_n_n.lhsIdx i q 0).val = (i 0).val := by
  unfold DotDims.lhsIdx
  rw [dif_neg (show ¬(0 : Fin S50000x256.rank) ∈ dot_S50000x256_S256x2_S50000x2_1_0_0_1_n_n.lhsBatch by decide), dif_pos (show (0 : Fin S50000x256.rank) ∈ dot_S50000x256_S256x2_S50000x2_1_0_0_1_n_n.lhsNonContracting by decide)]
  rfl
theorem lhsB_1 (i : S50000x2.Idx) (q : dot_S50000x256_S256x2_S50000x2_1_0_0_1_n_n.contr.Idx) :
    (dot_S50000x256_S256x2_S50000x2_1_0_0_1_n_n.lhsIdx i q 1).val = (q ⟨0, by decide⟩).val :=
  dot_S50000x256_S256x2_S50000x2_1_0_0_1_n_n.lhsIdx_val_of_single rfl i q
theorem rhsB_0 (i : S50000x2.Idx) (q : dot_S50000x256_S256x2_S50000x2_1_0_0_1_n_n.contr.Idx) :
    (dot_S50000x256_S256x2_S50000x2_1_0_0_1_n_n.rhsIdx i q 0).val = (q ⟨0, by decide⟩).val :=
  dot_S50000x256_S256x2_S50000x2_1_0_0_1_n_n.rhsIdx_val_of_single rfl i q
theorem rhsB_1 (i : S50000x2.Idx) (q : dot_S50000x256_S256x2_S50000x2_1_0_0_1_n_n.contr.Idx) :
    (dot_S50000x256_S256x2_S50000x2_1_0_0_1_n_n.rhsIdx i q 1).val = (i 1).val := by
  unfold DotDims.rhsIdx
  rw [dif_neg (show ¬(1 : Fin S256x2.rank) ∈ dot_S50000x256_S256x2_S50000x2_1_0_0_1_n_n.rhsBatch by decide), dif_pos (show (1 : Fin S256x2.rank) ∈ dot_S50000x256_S256x2_S50000x2_1_0_0_1_n_n.rhsNonContracting by decide)]
  rfl

theorem dotB_apply {φ₁ φ₂ : FTy} (l : FVec Ideal S50000x256 φ₁) (r : FVec Ideal S256x2 φ₂) (i : S50000x2.Idx) :
    Host.dotGeneral (F := Ideal) dot_S50000x256_S256x2_S50000x2_1_0_0_1_n_n none l r i
      = ∑ k : Fin 256, l (ix2 (i 0) k) * r (ix2 k (i 1)) := by
  simp only [Host.dotGeneral]
  rw [Ideal.dotGeneral_apply]
  exact PlainDot.sum_contr dot_S50000x256_S256x2_S50000x2_1_0_0_1_n_n rfl rfl lhsB_0 lhsB_1 rhsB_0 rhsB_1 l r i

/-! ## The bias: to a row, then down the rows -/

/-- The bias as a row [1, 256]. -/
def rowA (b : FVec Ideal S256 .f32) : FVec Ideal S1x256 .f32 := broadcastInDim S1x256 ![1] bcast_S256_S1x256_1 b
/-- The bias as a row [1, 2]. -/
def rowB (b : FVec Ideal S2 .f32) : FVec Ideal S1x2 .f32 := broadcastInDim S1x2 ![1] bcast_S2_S1x2_1 b

theorem rowA_apply (b : FVec Ideal S256 .f32) (j : S1x256.Idx) : rowA b j = b (ix1 (j 1)) := by
  unfold rowA
  exact broadcastInDim_apply _ bcast_S256_S1x256_1 b j (ix1 (j 1)) (fun a => match a with
    | ⟨0, _⟩ => by show (j 1).val = if (256 : Nat) = 1 then 0 else (j 1).val; rw [if_neg (by decide)])

theorem rowB_apply (b : FVec Ideal S2 .f32) (j : S1x2.Idx) : rowB b j = b (ix1 (j 1)) := by
  unfold rowB
  exact broadcastInDim_apply _ bcast_S2_S1x2_1 b j (ix1 (j 1)) (fun a => match a with
    | ⟨0, _⟩ => by show (j 1).val = if (2 : Nat) = 1 then 0 else (j 1).val; rw [if_neg (by decide)])

theorem downA_apply (r : FVec Ideal S1x256 .f32) (i : S50000x256.Idx) :
    broadcastInDim S50000x256 ![0, 1] bcast_S1x256_S50000x256_0_1 r i = r (ix2 (0 : Fin 1) (i 1)) :=
  broadcastInDim_apply _ bcast_S1x256_S50000x256_0_1 r i (ix2 (0 : Fin 1) (i 1)) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

theorem downB_apply (r : FVec Ideal S1x2 .f32) (i : S50000x2.Idx) :
    broadcastInDim S50000x2 ![0, 1] bcast_S1x2_S50000x2_0_1 r i = r (ix2 (0 : Fin 1) (i 1)) :=
  broadcastInDim_apply _ bcast_S1x2_S50000x2_0_1 r i (ix2 (0 : Fin 1) (i 1)) (fun a => match a with
    | ⟨0, _⟩ => by show 0 = if (1 : Nat) = 1 then 0 else (i 0).val; rw [if_pos rfl]
    | ⟨1, _⟩ => by show (i 1).val = if (2 : Nat) = 1 then 0 else (i 1).val; rw [if_neg (by decide)])

/-! ## The reference's functions, named -/

/-- The index column: each index, wrapped by the table's height when negative. -/
def wrappedR (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 50000#32))) src)

/-- The segment mean of [E, 128] messages over the destinations. -/
def mean128R (msg : FVec Ideal S640000x128 .f32) (dst : IVec S640000 32) : FVec Ideal S50000x128 .f32 :=
  Host.divf
    (Host.scatterAdd scatter_S50000x128_S640000x1_S640000x128_1_0_0_1
      (broadcastInDim S50000x128 ![] bcast_S_S50000x128 (constant (F := Ideal) S_ .f32 0x00000000#32))
      (broadcastInDim S640000x1 ![0] bcast_S640000_S640000x1_0 dst) msg)
    (broadcastInDim S50000x128 ![0, 1] bcast_S50000x1_S50000x128_0_1
      (maximumf
        (Host.scatterAdd scatter_S50000x1_S640000x1_S640000x1_1_0_0_1
          (broadcastInDim S50000x1 ![] bcast_S_S50000x1 (constant (F := Ideal) S_ .f32 0x00000000#32))
          (broadcastInDim S640000x1 ![0] bcast_S640000_S640000x1_0 dst)
          (broadcastInDim S640000x1 ![] bcast_S_S640000x1 (constant (F := Ideal) S_ .f32 0x3F800000#32)))
        (broadcastInDim S50000x1 ![] bcast_S_S50000x1 (constant (F := Ideal) S_ .f32 0x3F800000#32))))

/-- The segment mean of [E, 256] messages over the destinations. -/
def mean256R (msg : FVec Ideal S640000x256 .f32) (dst : IVec S640000 32) : FVec Ideal S50000x256 .f32 :=
  Host.divf
    (Host.scatterAdd scatter_S50000x256_S640000x1_S640000x256_1_0_0_1
      (broadcastInDim S50000x256 ![] bcast_S_S50000x256 (constant (F := Ideal) S_ .f32 0x00000000#32))
      (broadcastInDim S640000x1 ![0] bcast_S640000_S640000x1_0 dst) msg)
    (broadcastInDim S50000x256 ![0, 1] bcast_S50000x1_S50000x256_0_1
      (maximumf
        (Host.scatterAdd scatter_S50000x1_S640000x1_S640000x1_1_0_0_1
          (broadcastInDim S50000x1 ![] bcast_S_S50000x1 (constant (F := Ideal) S_ .f32 0x00000000#32))
          (broadcastInDim S640000x1 ![0] bcast_S640000_S640000x1_0 dst)
          (broadcastInDim S640000x1 ![] bcast_S_S640000x1 (constant (F := Ideal) S_ .f32 0x3F800000#32)))
        (broadcastInDim S50000x1 ![] bcast_S_S50000x1 (constant (F := Ideal) S_ .f32 0x3F800000#32))))

/-- The reference's hidden layer. -/
def hiddenR (x : FVec Ideal S50000x128 .f32) (src dst : IVec S640000 32) (w1s w1n : FVec Ideal S128x256 .f32)
    (b1 : FVec Ideal S256 .f32) : FVec Ideal S50000x256 .f32 :=
  maximumf
    (addf
      (addf (Host.dotGeneral dot_S50000x128_S128x256_S50000x256_1_0_0_1_n_n none x w1s)
        (Host.dotGeneral dot_S50000x128_S128x256_S50000x256_1_0_0_1_n_n none
          (mean128R (Host.gather gather_S50000x128_S640000x1_S640000x128_1_0_n_n_0_1_1128 x (wrappedR src)) dst) w1n))
      (broadcastInDim S50000x256 ![0, 1] bcast_S1x256_S50000x256_0_1 (rowA b1)))
    (broadcastInDim S50000x256 ![] bcast_S_S50000x256 (constant (F := Ideal) S_ .f32 0x00000000#32))

/-- The reference's output layer over a hidden layer h. -/
def logitsR (h : FVec Ideal S50000x256 .f32) (src dst : IVec S640000 32) (w2s w2n : FVec Ideal S256x2 .f32)
    (b2 : FVec Ideal S2 .f32) : FVec Ideal S50000x2 .f32 :=
  addf
    (addf (Host.dotGeneral dot_S50000x256_S256x2_S50000x2_1_0_0_1_n_n none h w2s)
      (Host.dotGeneral dot_S50000x256_S256x2_S50000x2_1_0_0_1_n_n none
        (mean256R (Host.gather gather_S50000x256_S640000x1_S640000x256_1_0_n_n_0_1_1256 h (wrappedR src)) dst) w2n))
    (broadcastInDim S50000x2 ![0, 1] bcast_S1x2_S50000x2_0_1 (rowB b2))

/-- The run's result term is the output layer of the hidden layer of the arguments. -/
theorem res_eq (m : (ℓ : Loc nD τ sig) → Buf (Elt Ideal) ℓ) (c : Dev nD) :
    Cert.ReferenceIdeal.Value.res_main_v48 m c
      = logitsR
          (hiddenR (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)))
          (m ((c.tc : Thread nD τ).loc main_arg1)) (m ((c.tc : Thread nD τ).loc main_arg2))
          (m ((c.tc : Thread nD τ).loc main_arg6)) (m ((c.tc : Thread nD τ).loc main_arg7)) (m ((c.tc : Thread nD τ).loc main_arg8)) := by
  unfold Cert.ReferenceIdeal.Value.res_main_v48 logitsR hiddenR mean128R mean256R wrappedR rowA rowB
  rfl

/-! ## Each layer at an index -/

/-- The hidden layer at an index: max of the per-index formula and zero. -/
theorem hiddenR_apply (x : FVec Ideal S50000x128 .f32) (src dst : IVec S640000 32) (w1s w1n : FVec Ideal S128x256 .f32)
    (b1 : FVec Ideal S256 .f32) (i : S50000x256.Idx) :
    hiddenR x src dst w1s w1n b1 i
      = max (PlainDot.affine x (mean128R (Host.gather gather_S50000x128_S640000x1_S640000x128_1_0_n_n_0_1_1128 x (wrappedR src)) dst)
          w1s w1n (rowA b1) i) (Ideal.ofBits .f32 0x00000000#32) := by
  unfold hiddenR
  show max (Host.dotGeneral (F := Ideal) dot_S50000x128_S128x256_S50000x256_1_0_0_1_n_n none x w1s i
      + Host.dotGeneral (F := Ideal) dot_S50000x128_S128x256_S50000x256_1_0_0_1_n_n none
          (mean128R (Host.gather gather_S50000x128_S640000x1_S640000x128_1_0_n_n_0_1_1128 x (wrappedR src)) dst) w1n i
      + broadcastInDim S50000x256 ![0, 1] bcast_S1x256_S50000x256_0_1 (rowA b1) i) (Ideal.ofBits .f32 0x00000000#32) = _
  rw [dotA_apply, dotA_apply, downA_apply]
  rfl

/-- The output layer is the per-index formula. -/
theorem logitsR_eq (h : FVec Ideal S50000x256 .f32) (src dst : IVec S640000 32) (w2s w2n : FVec Ideal S256x2 .f32)
    (b2 : FVec Ideal S2 .f32) :
    logitsR h src dst w2s w2n b2
      = PlainDot.affine h (mean256R (Host.gather gather_S50000x256_S640000x1_S640000x256_1_0_n_n_0_1_1256 h (wrappedR src)) dst)
          w2s w2n (rowB b2) := by
  funext i
  unfold logitsR
  show Host.dotGeneral (F := Ideal) dot_S50000x256_S256x2_S50000x2_1_0_0_1_n_n none h w2s i
      + Host.dotGeneral (F := Ideal) dot_S50000x256_S256x2_S50000x2_1_0_0_1_n_n none
          (mean256R (Host.gather gather_S50000x256_S640000x1_S640000x256_1_0_n_n_0_1_1256 h (wrappedR src)) dst) w2n i
      + broadcastInDim S50000x2 ![0, 1] bcast_S1x2_S50000x2_0_1 (rowB b2) i = _
  rw [dotB_apply, dotB_apply, downB_apply]
  rfl

end Cert.ReferenceIdeal.RefForm

end
-- ==== Proof.Bridge.lean ====
/-
  The two closed forms are one function. Both programs wrap a negative index the same way, gather with the same
  dimension numbers, take the same segment mean and use the same per-index layer formula; the kernel's bias row is
  the bias reshaped to [1, D], the reference's the bias broadcast to [1, D], both `b[q]` at (0, q). The one difference
  is the fill of the kernel's take, which never fires when every index lies in [-50000, 50000).
-/
import proofs.«410319_j48344151884052_1_alg».proof.Proof.KernelValue
import proofs.«410319_j48344151884052_1_alg».proof.Proof.RefForm
import proofs.«410319_j48344151884052_1_alg».proof.Proof.IndexRange
import Idealize.ShloMosaic.Lib.Pipeline.Value

set_option maxRecDepth 16384

noncomputable section

namespace Cert.Bridge

open Idealize.ShloMosaic Idealize.ShloMosaic.ValueIdx

/-! ## The shared host functions, under their two names -/

theorem wrapped_eq (src : IVec Cert.KernelIdeal.S640000 32) :
    Cert.KernelIdeal.IndexRange.wrapped src = Cert.ReferenceIdeal.RefForm.wrappedR src := rfl

theorem gather128_eq (x : FVec Ideal Cert.KernelIdeal.S50000x128 .f32) (idx : IVec Cert.KernelIdeal.S640000x1 32) :
    Host.gather Cert.KernelIdeal.gather_S50000x128_S640000x1_S640000x128_1_0_n_n_0_1_1128 x idx
      = Host.gather Cert.ReferenceIdeal.gather_S50000x128_S640000x1_S640000x128_1_0_n_n_0_1_1128 x idx := rfl

theorem gather256_eq (x : FVec Ideal Cert.KernelIdeal.S50000x256 .f32) (idx : IVec Cert.KernelIdeal.S640000x1 32) :
    Host.gather Cert.KernelIdeal.gather_S50000x256_S640000x1_S640000x256_1_0_n_n_0_1_1256 x idx
      = Host.gather Cert.ReferenceIdeal.gather_S50000x256_S640000x1_S640000x256_1_0_n_n_0_1_1256 x idx := rfl

theorem mean128_eq (msg : FVec Ideal Cert.KernelIdeal.S640000x128 .f32) (dst : IVec Cert.KernelIdeal.S640000 32) :
    Cert.KernelIdeal.HostRead.mean128 (F := Ideal) msg dst = Cert.ReferenceIdeal.RefForm.mean128R msg dst := rfl

theorem mean256_eq (msg : FVec Ideal Cert.KernelIdeal.S640000x256 .f32) (dst : IVec Cert.KernelIdeal.S640000 32) :
    Cert.KernelIdeal.HostRead.mean256 (F := Ideal) msg dst = Cert.ReferenceIdeal.RefForm.mean256R msg dst := rfl

/-! ## The bias row: reshaped or broadcast, the same row -/

theorem rowA_eq (b : FVec Ideal Cert.KernelIdeal.S256 .f32) :
    shapeCast Cert.KernelIdeal.S1x256 b Cert.KernelIdeal.Gen.shapeCasts_S256_S1x256 = Cert.ReferenceIdeal.RefForm.rowA b := by
  funext j
  rw [Cert.ReferenceIdeal.RefForm.rowA_apply]
  refine shapeCast_apply b _ j (ix1 (j 1)) ?_
  rw [Shape.rowMajor_val_one, Shape.rowMajor_val_two]
  have h0 : (j 0).val < 1 := (j 0).isLt
  show (j 1).val = (j 0).val * 256 + (j 1).val
  omega

theorem rowB_eq (b : FVec Ideal Cert.KernelIdeal.S2 .f32) :
    shapeCast Cert.KernelIdeal.S1x2 b Cert.KernelIdeal.Gen.shapeCasts_S2_S1x2 = Cert.ReferenceIdeal.RefForm.rowB b := by
  funext j
  rw [Cert.ReferenceIdeal.RefForm.rowB_apply]
  refine shapeCast_apply b _ j (ix1 (j 1)) ?_
  rw [Shape.rowMajor_val_one, Shape.rowMajor_val_two]
  have h0 : (j 0).val < 1 := (j 0).isLt
  show (j 1).val = (j 0).val * 2 + (j 1).val
  omega

/-! ## The closed forms -/

/-- With every source index in [-50000, 50000) the kernel's value is the reference's. -/
theorem value_eq (x : FVec Ideal Cert.KernelIdeal.S50000x128 .f32) (src dst : IVec Cert.KernelIdeal.S640000 32)
    (w1s w1n : FVec Ideal Cert.KernelIdeal.S128x256 .f32) (b1 : FVec Ideal Cert.KernelIdeal.S256 .f32)
    (w2s w2n : FVec Ideal Cert.KernelIdeal.S256x2 .f32) (b2 : FVec Ideal Cert.KernelIdeal.S2 .f32)
    (hsrc : ∀ e : Cert.KernelIdeal.S640000.Idx, (4294917296#32 : BitVec 32).toInt ≤ (src e).toInt ∧ (src e).toInt < (50000#32 : BitVec 32).toInt) :
    Cert.KernelIdeal.Closed.logits (Cert.KernelIdeal.Closed.hidden x src dst w1s w1n b1) src dst w2s w2n b2
      = Cert.ReferenceIdeal.RefForm.logitsR (Cert.ReferenceIdeal.RefForm.hiddenR x src dst w1s w1n b1) src dst w2s w2n b2 := by
  have hh : Cert.KernelIdeal.Closed.hidden x src dst w1s w1n b1 = Cert.ReferenceIdeal.RefForm.hiddenR x src dst w1s w1n b1 := by
    funext i
    rw [Cert.ReferenceIdeal.RefForm.hiddenR_apply]
    unfold Cert.KernelIdeal.Closed.hidden
    rw [Cert.KernelIdeal.IndexRange.take128_eq x src hsrc, rowA_eq, wrapped_eq, gather128_eq, mean128_eq]
  rw [hh, Cert.ReferenceIdeal.RefForm.logitsR_eq]
  unfold Cert.KernelIdeal.Closed.logits
  rw [Cert.KernelIdeal.IndexRange.take256_eq _ src hsrc, rowB_eq, wrapped_eq, gather256_eq, mean256_eq]

end Cert.Bridge

end
-- ==== Proof.lean ====
/-
  Two stacked mean-aggregate graph layers. Each layer gathers the node features along the edges' sources, averages the
  gathered rows over each edge's destination (scatter-add, then division by the in-degree clamped below at one), and
  combines: h = x·W_self + mean·W_neigh + b, under max(·, 0) after the first layer. The kernel keeps the gather and the
  mean as host operations and runs each combine as a pallas_call over ten blocks of 5000 rows; the reference writes
  every step as one whole-array operation.

  Over the extended reals the two programs compute one function wherever every source index lies in
  [-50000, 50000), the range in which `x[src]` indexes the 50000 rows (negative indices counted from the end):
    · a row block of a combine needs only those rows of its two row-blocked operands, and the ten blocks tile the
      result, so each call leaves the whole-array combine in its result buffer (Regions, over Body's per-index sums);
    · a matrix product into a zero accumulator and the host's dot_general are the same sum over the contracted
      coordinate; the roundings to bf16 on the way into the matrix unit are the identity; the bias row is b[q] either way;
    · the host operations around the calls are the reference's, operation for operation, except that the kernel's
      jnp.take fills the rows whose wrapped index fails its range test — and in the stated range none does (IndexRange).
  The sums are never re-associated and nothing is cancelled, so finiteness of the float inputs is not used.

  The three frames are the generated ones (the reference's is its generated run with the result dropped);
  no rewrite of the ideal pass is recorded, so the fourth conjunct is `True`.
-/
import proofs.«410319_j48344151884052_1_alg».proof.Defs
import proofs.«410319_j48344151884052_1_alg».proof.Proof.Gen.Kernel
import proofs.«410319_j48344151884052_1_alg».proof.Proof.Gen.Kernel.Frame
import proofs.«410319_j48344151884052_1_alg».proof.Proof.Gen.KernelIdeal
import proofs.«410319_j48344151884052_1_alg».proof.Proof.Gen.KernelIdeal.Frame
import proofs.«410319_j48344151884052_1_alg».proof.Proof.Gen.ReferenceIdeal
import proofs.«410319_j48344151884052_1_alg».proof.Proof.Gen.ReferenceIdeal.Run
import proofs.«410319_j48344151884052_1_alg».proof.Proof.Gen.Pre_finite_inputs
import proofs.«410319_j48344151884052_1_alg».proof.Proof.KernelRun
import proofs.«410319_j48344151884052_1_alg».proof.Proof.KernelValue
import proofs.«410319_j48344151884052_1_alg».proof.Proof.RefForm
import proofs.«410319_j48344151884052_1_alg».proof.Proof.IndexRange
import proofs.«410319_j48344151884052_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the output layer of the hidden layer of those
    arguments in their result buffers: the kernel by its run read through the two calls, the reference by its run's
    term read layer by layer; the precondition's index range makes the two one function. -/
theorem algebraic : Cert.algebraic_KernelIdeal_ReferenceIdeal := by
  intro m ρ m' ρ' hpre hagree
  have hsrc : ∀ (c : Dev Cert.KernelIdeal.nD) (e : Cert.KernelIdeal.S640000.Idx),
      (4294917296#32 : BitVec 32).toInt ≤ (m ((c.tc : Thread Cert.KernelIdeal.nD Cert.KernelIdeal.τ).loc Cert.KernelIdeal.main_arg1) e).toInt
        ∧ (m ((c.tc : Thread Cert.KernelIdeal.nD Cert.KernelIdeal.τ).loc Cert.KernelIdeal.main_arg1) e).toInt < (50000#32 : BitVec 32).toInt :=
    fun c e => Cert.KernelIdeal.IndexRange.src_range _ _ _ _ _ _ _ _ _ (hpre c) e
  refine ⟨fun c => Cert.KernelIdeal.Closed.logits
      (Cert.KernelIdeal.Closed.hidden
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Closed.result m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.RefForm.res_eq, a0, a1, a2, a3, a4, a5, a6, a7, a8]
    exact (Cert.Bridge.value_eq _ _ _ _ _ _ _ _ _ (hsrc c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
